-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S1 : Shape := ⟨1, ![1]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S2048x64 : S_.BroadcastsInDim S2048x64 (![] : Fin 0 → Fin S2048x64.rank)
  reducesTo_S2048x64_S_d0_1 : S2048x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64 .f32) (main_arg5 : FVec F S2048x64 .f32) (main_arg6 : FVec F S2048 .f32) (main_arg7 : FVec F S1 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S4x4096x2048 .f32) (main_arg1 : FVec F S2048 .f32) (main_arg2 : FVec F S2048 .f32) (main_arg3 : FVec F S64x2048 .f32) (main_arg4 : FVec F S64 .f32) (main_arg5 : FVec F S2048x64 .f32) (main_arg6 : FVec F S2048 .f32) (main_arg7 : FVec F S1 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_arg5 main_arg6 main_arg7 main_v13 main_v16
-- ==== Kernel.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S1 : Shape := ⟨1, ![1]⟩
abbrev S16384x2048 : Shape := ⟨2, ![16384, 2048]⟩
abbrev S1x2048 : Shape := ⟨2, ![1, 2048]⟩
abbrev S1x64 : Shape := ⟨2, ![1, 64]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S512x64 : Shape := ⟨2, ![512, 64]⟩

abbrev nBuf : Space → Nat
  | .hbm => 18
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S1, .f32⟩
  | .hbm, ⟨8, _⟩ => ⟨S16384x2048, .f32⟩
  | .hbm, ⟨9, _⟩ => ⟨S1x2048, .f32⟩
  | .hbm, ⟨10, _⟩ => ⟨S1x2048, .f32⟩
  | .hbm, ⟨11, _⟩ => ⟨S2048x64, .f32⟩
  | .hbm, ⟨12, _⟩ => ⟨S1x64, .f32⟩
  | .hbm, ⟨13, _⟩ => ⟨S64x2048, .f32⟩
  | .hbm, ⟨14, _⟩ => ⟨S1x2048, .f32⟩
  | .hbm, ⟨15, _⟩ => ⟨S1x1, .f32⟩
  | .hbm, ⟨16, _⟩ => ⟨S16384x2048, .f32⟩
  | .hbm, ⟨17, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x64, .f32⟩
  | .local _ .vmem, ⟨5, _⟩ => ⟨S1x64, .f32⟩
  | .local _ .vmem, ⟨6, _⟩ => ⟨S64x2048, .f32⟩
  | .local _ .vmem, ⟨7, _⟩ => ⟨S1x2048, .f32⟩
  | .local _ .vmem, ⟨8, _⟩ => ⟨S1x1, .f32⟩
  | .local _ .vmem, ⟨9, _⟩ => ⟨S512x2048, .f32⟩
  | .local _ .vmem, ⟨10, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4x4096x2048_S16384x2048 : S4x4096x2048.ShapeCasts S16384x2048
  shapeCasts_S2048_S1x2048 : S2048.ShapeCasts S1x2048
  transposes_S64x2048_S2048x64_1_0 : S64x2048.Transposes [1, 0] S2048x64
  shapeCasts_S64_S1x64 : S64.ShapeCasts S1x64
  transposes_S2048x64_S64x2048_1_0 : S2048x64.Transposes [1, 0] S64x2048
  shapeCasts_S1_S1x1 : S1.ShapeCasts S1x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2048 : S1x1.Broadcasts S512x2048
  shapeCasts_S16384x2048_S4x4096x2048 : S16384x2048.ShapeCasts S4x4096x2048
  dot_S512x2048_S2048x64_S512x64_1_0_0_1_n_n_wf : DotDims.WF S512x2048 S2048x64 S512x64 [1] [0] [0] [1] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .f32 = 32 ∨ (Rect.block (s := S64x2048) S64x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S16384x2048.size a
  hwx0_8 : ∀ i : grid0.Coords, EltTy.bits .f32 = 32 ∨ (Rect.block (s := S16384x2048) S512x2048.size (cc0_transform_8 i) (hinb0_8 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S512x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S1 : Shape := ⟨1, ![1]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x64 : Shape := ⟨3, ![4, 4096, 64]⟩
abbrev S1x1x64 : Shape := ⟨3, ![1, 1, 64]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S1, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S1x1x2048, .f32⟩
  | .hbm, ⟨35, _⟩ => ⟨S4x4096x2048, .f32⟩
  | .hbm, ⟨36, _⟩ => ⟨S4x4096x2048, .f32⟩
  | .hbm, ⟨37, _⟩ => ⟨S4x4096x64, .f32⟩
  | .hbm, ⟨38, _⟩ => ⟨S1x1x64, .f32⟩
  | .hbm, ⟨39, _⟩ => ⟨S4x4096x64, .f32⟩
  | .hbm, ⟨40, _⟩ => ⟨S4x4096x64, .f32⟩
  | .hbm, ⟨41, _⟩ => ⟨S_, .f32⟩
  | .hbm, ⟨42, _⟩ => ⟨S4x4096x64, .f32⟩
  | .hbm, ⟨43, _⟩ => ⟨S4x4096x64, .f32⟩
  | .hbm, ⟨44, _⟩ => ⟨S4x4096x2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S1x1x1, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x64 : S_.BroadcastsInDim S4x4096x64 (![] : Fin 0 → Fin S4x4096x64.rank)
  bcast_S1_S1x1x1_2 : S1.BroadcastsInDim S1x1x1 (![2] : Fin 1 → Fin S1x1x1.rank)
  bcast_S1x1x1_S4x4096x2048_0_1_2 : S1x1x1.BroadcastsInDim S4x4096x2048 (![0, 1, 2] : Fin 3 → Fin S4x4096x2048.rank)
  dot_S4x4096x2048_S64x2048_S4x4096x64_2_1_01_0_n_n_wf : DotDims.WF S4x4096x2048 S64x2048 S4x4096x64 [2] [1] [0, 1] [0] [] []
  dot_S4x4096x64_S2048x64_S4x4096x2048_2_1_01_0_n_n_wf : DotDims.WF S4x4096x64 S2048x64 S4x4096x2048 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S2048x64_S4x4096x2048_2_1_01_0_n_n : DotDims S4x4096x64 S2048x64 S4x4096x2048 where
  lhsContracting := [2]
  rhsContracting := [1]
  lhsNonContracting := [0, 1]
  rhsNonContracting := [0]
  lhsBatch := []
  rhsBatch := []
  wf := dot_S4x4096x64_S2048x64_S4x4096x2048_2_1_01_0_n_n_wf

class Facts : Prop extends Facts₀ where

variable [Facts]
-- ==== Proof.Spec.lean ====
/-
  The adapter layer as mathematics on the extended reals, one row at a time.

  For one row `x` of length 2048 with LayerNorm weights `g`, `b`, down-projection `wd` (64 rows of length 2048)
  and bias `bd`, up-projection `wu` (2048 rows of length 64) and bias `bu`, and a scalar `sc`:
    mean   = (∑ x) / 2048,   cen d = x d − mean,   var = (∑ cen²) / 2048,
    norm d = cen d · rsqrt (var + ε) · g d + b d,
    down r = max ((∑_d norm d · wd r d) + bd r, 0),
    out d  = ((∑_r down r · wu d r) + bu d) · sc + x d.
  `G` lays this out over the argument arrays of shape [4, 4096, 2048]; `G2` over the arrays as the kernel's
  launch sees them (rows flattened to [16384, 2048], vectors as one-row matrices, both weight matrices
  transposed). `reshape_G2` says the two layouts are one function: flattening the leading two axes,
  adding a unit axis and transposing only rename indices.
-/
import Idealize.ShloMosaic.PureOps.Ideal
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.Adapter

/-- The float words both programs print: the row length 2048.0, the variance offset 1e-5 (as f32), and 0.0. -/
abbrev cLen : EReal := Ideal.ofBits .f32 0x45000000#32
abbrev cEps : EReal := Ideal.ofBits .f32 0x3727C5AC#32
abbrev cZero : EReal := Ideal.ofBits .f32 0x00000000#32

section Row

variable (x g b : Fin 2048 → EReal) (wd : Fin 64 → Fin 2048 → EReal) (bd : Fin 64 → EReal)
  (wu : Fin 2048 → Fin 64 → EReal) (bu : Fin 2048 → EReal) (sc : EReal)

/-- The row's mean. -/
def rowMean : EReal := Ideal.div (∑ k, x k) cLen
/-- The row centred. -/
def rowCen (d : Fin 2048) : EReal := x d - rowMean x
/-- The row's (biased) variance. -/
def rowVar : EReal := Ideal.div (∑ k, rowCen x k * rowCen x k) cLen
/-- LayerNorm of the row. -/
def rowNorm (d : Fin 2048) : EReal := rowCen x d * Ideal.rsqrt (rowVar x + cEps) * g d + b d
/-- The down-projection with its bias, clamped below at zero. -/
def rowDown (r : Fin 64) : EReal := max ((∑ d, rowNorm x g b d * wd r d) + bd r) cZero
/-- The up-projection with its bias, scaled, plus the row itself. -/
def rowOut (d : Fin 2048) : EReal := ((∑ r, rowDown x g b wd bd r * wu d r) + bu d) * sc + x d

end Row

abbrev T3 : Shape := ⟨3, ![4, 4096, 2048]⟩
abbrev T2 : Shape := ⟨2, ![16384, 2048]⟩
abbrev V2048 : Shape := ⟨1, ![2048]⟩
abbrev V64 : Shape := ⟨1, ![64]⟩
abbrev V1 : Shape := ⟨1, ![1]⟩
abbrev R2048 : Shape := ⟨2, ![1, 2048]⟩
abbrev R64 : Shape := ⟨2, ![1, 64]⟩
abbrev R1 : Shape := ⟨2, ![1, 1]⟩
abbrev M64x2048 : Shape := ⟨2, ![64, 2048]⟩
abbrev M2048x64 : Shape := ⟨2, ![2048, 64]⟩

/-- The result over the argument arrays: entry (a, s, d) is `rowOut` of row (a, s) at `d`. -/
def G (x : T3.Idx → EReal) (g b : V2048.Idx → EReal) (wd : M64x2048.Idx → EReal) (bd : V64.Idx → EReal)
    (wu : M2048x64.Idx → EReal) (bu : V2048.Idx → EReal) (sc : V1.Idx → EReal) : T3.Idx → EReal := fun i =>
  rowOut (fun k => x (ix3 (i 0) (i 1) k)) (fun k => g (ix1 k)) (fun k => b (ix1 k)) (fun r d => wd (ix2 r d))
    (fun r => bd (ix1 r)) (fun d r => wu (ix2 d r)) (fun d => bu (ix1 d)) (sc (ix1 0)) (i 2)

/-- The same over the launch's layout: rows flattened, vectors as one-row matrices, the two weight matrices transposed. -/
def G2 (X : T2.Idx → EReal) (g b : R2048.Idx → EReal) (wdT : M2048x64.Idx → EReal) (bd : R64.Idx → EReal)
    (wuT : M64x2048.Idx → EReal) (bu : R2048.Idx → EReal) (sc : R1.Idx → EReal) : T2.Idx → EReal := fun j =>
  rowOut (fun k => X (ix2 (j 0) k)) (fun k => g (ix2 0 k)) (fun k => b (ix2 0 k)) (fun r d => wdT (ix2 d r))
    (fun r => bd (ix2 0 r)) (fun d r => wuT (ix2 r d)) (fun d => bu (ix2 0 d)) (sc (ix2 0 0)) (j 1)

/-- Row `a · 4096 + s` of the flattened array is row (a, s). -/
theorem flatten_apply (x : T3.Idx → EReal) (h : T3.ShapeCasts T2) (a : Fin 4) (s : Fin 4096) (k : Fin 2048)
    (R : Fin 16384) (hR : R.val = a.val * 4096 + s.val) :
    shapeCast T2 x h (ix2 R k) = x (ix3 a s k) :=
  shapeCast_apply x h _ _ (by
    rw [Shape.rowMajor_val_three, Shape.rowMajor_val_two]
    show (a.val * 4096 + s.val) * 2048 + k.val = R.val * 2048 + k.val
    rw [hR])

/-- Entry (a, s, d) of the unflattened array is entry (a · 4096 + s, d). -/
theorem unflatten_apply (y : T2.Idx → EReal) (h : T2.ShapeCasts T3) (a : Fin 4) (s : Fin 4096) (d : Fin 2048)
    (R : Fin 16384) (hR : R.val = a.val * 4096 + s.val) :
    shapeCast T3 y h (ix3 a s d) = y (ix2 R d) :=
  shapeCast_apply y h _ _ (by
    rw [Shape.rowMajor_val_three, Shape.rowMajor_val_two]
    show R.val * 2048 + d.val = (a.val * 4096 + s.val) * 2048 + d.val
    rw [hR])

/-- The launch's layout of the arguments computes the same function: flatten, compute by rows, unflatten. -/
theorem reshape_G2 (x : T3.Idx → EReal) (g b : V2048.Idx → EReal) (wd : M64x2048.Idx → EReal) (bd : V64.Idx → EReal)
    (wu : M2048x64.Idx → EReal) (bu : V2048.Idx → EReal) (sc : V1.Idx → EReal)
    (h0 : T3.ShapeCasts T2) (h1 : V2048.ShapeCasts R2048) (h3 : M64x2048.Transposes [1, 0] M2048x64)
    (h4 : V64.ShapeCasts R64) (h5 : M2048x64.Transposes [1, 0] M64x2048) (h7 : V1.ShapeCasts R1) (h9 : T2.ShapeCasts T3) :
    shapeCast T3 (G2 (shapeCast T2 x h0) (shapeCast R2048 g h1) (shapeCast R2048 b h1) (transpose M2048x64 [1, 0] wd h3)
        (shapeCast R64 bd h4) (transpose M64x2048 [1, 0] wu h5) (shapeCast R2048 bu h1) (shapeCast R1 sc h7)) h9
      = G x g b wd bd wu bu sc := by
  funext i
  obtain ⟨a, s, d, rfl⟩ : ∃ (a : Fin 4) (s : Fin 4096) (d : Fin 2048), i = ix3 a s d := ⟨i 0, i 1, i 2, eq_ix3 i⟩
  have hlt : a.val * 4096 + s.val < 16384 := by have := a.isLt; have := s.isLt; omega
  rw [unflatten_apply _ h9 a s d ⟨a.val * 4096 + s.val, hlt⟩ rfl]
  have e0 : (fun k : Fin 2048 => shapeCast T2 x h0 (ix2 (⟨a.val * 4096 + s.val, hlt⟩ : Fin 16384) k)) = fun k => x (ix3 a s k) :=
    funext fun k => flatten_apply x h0 a s k _ rfl
  have e1 : ∀ v : V2048.Idx → EReal, (fun k : Fin 2048 => shapeCast R2048 v h1 (ix2 (0 : Fin 1) k)) = fun k => v (ix1 k) :=
    fun v => funext fun k => shapeCast_a_1a_apply v h1 0 k
  have e3 : (fun (r : Fin 64) (k : Fin 2048) => transpose M2048x64 [1, 0] wd h3 (ix2 k r)) = fun r k => wd (ix2 r k) :=
    funext fun r => funext fun k => transpose_ix2_apply wd h3 k r
  have e4 : (fun r : Fin 64 => shapeCast R64 bd h4 (ix2 (0 : Fin 1) r)) = fun r => bd (ix1 r) :=
    funext fun r => shapeCast_a_1a_apply bd h4 0 r
  have e5 : (fun (k : Fin 2048) (r : Fin 64) => transpose M64x2048 [1, 0] wu h5 (ix2 r k)) = fun k r => wu (ix2 k r) :=
    funext fun k => funext fun r => transpose_ix2_apply wu h5 r k
  have e7 : shapeCast R1 sc h7 (ix2 (0 : Fin 1) (0 : Fin 1)) = sc (ix1 0) := shapeCast_a_1a_apply sc h7 0 0
  show rowOut (fun k => shapeCast T2 x h0 (ix2 (⟨a.val * 4096 + s.val, hlt⟩ : Fin 16384) k))
      (fun k => shapeCast R2048 g h1 (ix2 (0 : Fin 1) k)) (fun k => shapeCast R2048 b h1 (ix2 (0 : Fin 1) k))
      (fun r k => transpose M2048x64 [1, 0] wd h3 (ix2 k r)) (fun r => shapeCast R64 bd h4 (ix2 (0 : Fin 1) r))
      (fun k r => transpose M64x2048 [1, 0] wu h5 (ix2 r k)) (fun k => shapeCast R2048 bu h1 (ix2 (0 : Fin 1) k))
      (shapeCast R1 sc h7 (ix2 (0 : Fin 1) (0 : Fin 1))) d = _
  rw [e0, e1 g, e1 b, e1 bu, e3, e4, e5, e7]
  rfl

end Cert.Adapter

end
-- ==== Proof.RefValue.lean ====
/-
  The reference program's result, read one operation at a time, is the row-wise function `G` of the
  argument arrays. Each stage of the host program is identified with the matching row quantity:
  the mean and the variance (sums over the last axis divided by 2048), the normalised row, the
  clamped down-projection (a contraction over the 2048 columns) and the scaled up-projection
  (a contraction over the 64 hidden units) plus the input.
-/
import proofs.«135391_j25907242729694_1_alg».proof.Proof.Gen.ReferenceIdeal.Read
import proofs.«135391_j25907242729694_1_alg».proof.Proof.Spec

noncomputable section

open scoped BigOperators
open Idealize.ShloMosaic Idealize.ShloMosaic.ValueIdx

namespace Cert.ReferenceIdeal.RefValue

open Cert.ReferenceIdeal Cert.ReferenceIdeal.Read Cert.Adapter

variable (x0 : (⟨S4x4096x2048, .f32⟩ : BufTy).Contents (Elt Ideal))
  (x1 x2 : (⟨S2048, .f32⟩ : BufTy).Contents (Elt Ideal))
  (x3 : (⟨S64x2048, .f32⟩ : BufTy).Contents (Elt Ideal))
  (x4 : (⟨S64, .f32⟩ : BufTy).Contents (Elt Ideal))
  (x5 : (⟨S2048x64, .f32⟩ : BufTy).Contents (Elt Ideal))
  (x6 : (⟨S2048, .f32⟩ : BufTy).Contents (Elt Ideal))
  (x7 : (⟨S1, .f32⟩ : BufTy).Contents (Elt Ideal))

/-- Row (a, s) of the input. -/
abbrev row (a : Fin 4) (s : Fin 4096) : Fin 2048 → EReal := fun k => x0 (ix3 a s k)

/-- The mean stage: the sum over the last axis, from zero, divided by 2048. -/
theorem mean_eq (j : S4x4096x1.Idx) : val_main_v3 (F := Ideal) x0 j = rowMean (row x0 (j 0) (j 1)) := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold rowMean
  refine congrArg (Ideal.div · _) (Finset.sum_congr rfl fun k _ => congrArg x0 ?_)
  funext d
  match d with
  | ⟨0, _⟩ => rfl
  | ⟨1, _⟩ => rfl
  | ⟨2, _⟩ => rfl

/-- The centred input (both copies the program makes of it). -/
theorem cen_eq (i : S4x4096x2048.Idx) : val_main_v5 (F := Ideal) x0 i = rowCen (row x0 (i 0) (i 1)) (i 2) := by
  rw [val_main_v5_apply, val_main_v4_apply, mean_eq]
  simp only [Ideal.subf_def]
  unfold rowCen
  exact congrArg (· - _) (congrArg x0 (eq_ix3 i))
theorem cen_eq' (i : S4x4096x2048.Idx) : val_main_v12 (F := Ideal) x0 i = rowCen (row x0 (i 0) (i 1)) (i 2) := by
  rw [val_main_v12_apply, val_main_v11_apply, mean_eq]
  simp only [Ideal.subf_def]
  unfold rowCen
  exact congrArg (· - _) (congrArg x0 (eq_ix3 i))

/-- The variance stage. -/
theorem var_eq (j : S4x4096x1.Idx) : val_main_v10 (F := Ideal) x0 j = rowVar (row x0 (j 0) (j 1)) := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold rowVar
  refine congrArg (Ideal.div · _) (Finset.sum_congr rfl fun k _ => ?_)
  rw [val_main_v6_apply, cen_eq]
  rfl

/-- LayerNorm of the input. -/
theorem norm_eq (i : S4x4096x2048.Idx) :
    val_main_v23 (F := Ideal) x0 x1 x2 i
      = rowNorm (row x0 (i 0) (i 1)) (fun k => x1 (ix1 k)) (fun k => x2 (ix1 k)) (i 2) := by
  rw [val_main_v23_apply, val_main_v20_apply, val_main_v17_apply, cen_eq', val_main_v16_apply, val_main_v15_apply,
    val_main_v14_apply, var_eq, val_main_v13_apply, val_main_cst_3_apply, val_main_v19_apply, val_main_v18_apply,
    val_main_v22_apply, val_main_v21_apply]
  simp only [Ideal.addf_def, Ideal.mulf_def, Ideal.hostUnary_rsqrt_def, Ideal.ofBits_def]
  unfold rowNorm
  refine congrArg₂ (· + ·) (congrArg₂ (· * ·) rfl (congrArg x1 ?_)) (congrArg x2 ?_)
  · funext d
    match d with
    | ⟨0, _⟩ => rfl
  · funext d
    match d with
    | ⟨0, _⟩ => rfl

/-- The down-projection, its bias and the clamp at zero. -/
theorem down_eq (j : S4x4096x64.Idx) :
    val_main_v28 (F := Ideal) x0 x1 x2 x3 x4 j
      = rowDown (row x0 (j 0) (j 1)) (fun k => x1 (ix1 k)) (fun k => x2 (ix1 k)) (fun r d => x3 (ix2 r d))
          (fun r => x4 (ix1 r)) (j 2) := by
  rw [val_main_v28_apply, val_main_v27_apply, val_main_v24_apply, val_main_v26_apply, val_main_v25_apply,
    val_main_call0_v0_apply, val_main_call0_cst_apply]
  simp only [Ideal.addf_def, Ideal.maximumf_def, Ideal.ofBits_def]
  unfold rowDown
  refine congrArg (max · _) (congrArg₂ (· + ·) (Finset.sum_congr rfl fun k _ => ?_) ?_)
  · rw [norm_eq]
    refine congrArg₂ (· * ·) rfl (congrArg x3 ?_)
    funext d
    match d with
    | ⟨0, _⟩ => rfl
    | ⟨1, _⟩ => rfl
  · refine congrArg x4 ?_
    funext d
    match d with
    | ⟨0, _⟩ => rfl

/-- The whole reference: the up-projection of the clamped down-projection, its bias, the scale, the residual. -/
theorem result_eq : val_main_v36 (F := Ideal) x0 x1 x2 x3 x4 x5 x6 x7 = G x0 x1 x2 x3 x4 x5 x6 x7 := by
  funext i
  rw [val_main_v36_apply, val_main_v35_apply, val_main_v32_apply, val_main_v29_apply, val_main_v31_apply,
    val_main_v30_apply, val_main_v34_apply, val_main_v33_apply]
  simp only [Ideal.addf_def, Ideal.mulf_def]
  unfold G rowOut
  refine congrArg₂ (· + ·) (congrArg₂ (· * ·) (congrArg₂ (· + ·) (Finset.sum_congr rfl fun k _ => ?_) ?_) ?_) (congrArg x0 (eq_ix3 i))
  · rw [down_eq]
    refine congrArg₂ (· * ·) rfl (congrArg x5 ?_)
    funext d
    match d with
    | ⟨0, _⟩ => rfl
    | ⟨1, _⟩ => rfl
  · refine congrArg x6 ?_
    funext d
    match d with
    | ⟨0, _⟩ => rfl
  · refine congrArg x7 ?_
    funext d
    match d with
    | ⟨0, _⟩ => rfl

end Cert.ReferenceIdeal.RefValue

end
-- ==== Proof.LibColumns.lean ====
/-
  Layout lemmas for row statistics kept as a column (a sum over the last axis with the axis kept):
  a vector of length `a` recast as a column `[a, 1]`, a column broadcast along the rows of an `[a, b]`
  matrix, and a one-entry matrix broadcast to a whole matrix, each read at an index given by its
  coordinates; and, on the extended reals, elementwise `rsqrt` read at an index.
-/
import Idealize.ShloMosaic.PureOps.Ideal
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.LibColumns

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A one-entry matrix `[1, 1]` broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-- On the extended reals the elementwise reciprocal square root reads, at an index, the function of the entry there. -/
theorem rsqrt_apply {s : Shape} {φ : FTy} (x : FVec Ideal s φ) (i : s.Idx) : rsqrt x i = Ideal.rsqrt (x i) := rfl

end Cert.LibColumns

end
-- ==== Proof.BodyValue.lean ====
/-
  What one grid point of the kernel stores, read entry by entry on the extended reals.
  The block of 512 rows the point holds goes through the same row-wise arithmetic as the
  reference: each row's mean and variance are sums over its 2048 entries divided by 2048,
  the two matrix products are sums over the contracted axis (2048 columns, then 64 hidden
  units) because the products start from a zero accumulator, and narrowing to sixteen bits
  does nothing to an extended real. So entry (p, q) of the stored block is `rowOut` of row `p`
  of the input block, with the weights read through the transposed layout the launch passes.
-/
import proofs.«135391_j25907242729694_1_alg».proof.Proof.Gen.KernelIdeal.Frame
import proofs.«135391_j25907242729694_1_alg».proof.Proof.Spec
import proofs.«135391_j25907242729694_1_alg».proof.Proof.LibColumns
import Idealize.ShloMosaic.PureOps.Ideal.Laws

noncomputable section

open scoped BigOperators
open Idealize.ShloMosaic Idealize.ShloMosaic.ValueIdx

namespace Cert.KernelIdeal.Body

open Cert.KernelIdeal Cert.KernelIdeal.Gen Cert.Adapter Cert.LibColumns

theorem hz : (![0, 0] : Fin 2 → Nat) = fun _ => 0 := funext fun a => by fin_cases a <;> rfl

/-- The sum over a row of the block, from a zero accumulator. -/
theorem rowSum_apply (v : FVec Ideal S512x2048 .f32) (h : S512x2048.Reduces [1] S512)
    (hφ : FTy.f32 = FTy.f32 ∨ FTy.f32 = FTy.bf16) (hacc : @Eq (BitVec FTy.f32.bits) 0x00000000#32 0x00000000#32) (p : Fin 512) :
    multiReduction .add [1] S512 v 0x00000000#32 h hφ hacc (ix1 p) = ∑ k : Fin 2048, v (ix2 p k) := by
  refine (Ideal.multiReduction_add_single v 0x00000000#32 h hφ hacc (ix1 p)).trans ?_
  refine Finset.sum_congr rfl fun k _ => congrArg v ?_
  funext d
  match d with
  | ⟨0, _⟩ => rfl
  | ⟨1, _⟩ => rfl

/-- The down-projection's product: entry (p, c) sums, over the 2048 columns, the row's entry times the weight's. -/
theorem lhs_down_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_down_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_down_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_down_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

theorem matmul_down_apply (l : FVec Ideal S512x2048 .bf16) (r : FVec Ideal S2048x64 .bf16) (p : Fin 512) (c : Fin 64) :
    matmul dot_S512x2048_S2048x64_S512x64_1_0_0_1_n_n none l r (constant S512x64 .f32 0x00000000#32) (ix2 p c)
      = ∑ k : Fin 2048, l (ix2 p k) * r (ix2 k c) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p c) ((ValueIdx.contrEquiv1 dot_S512x2048_S2048x64_S512x64_1_0_0_1_n_n 2048 rfl rfl).symm k) = ix2 p k := funext fun a => Fin.ext (by
    match a with
    | ⟨0, _⟩ => exact lhs_down_0 _ _
    | ⟨1, _⟩ => exact (lhs_down_1 _ _).trans hk)
  have er : dot_S512x2048_S2048x64_S512x64_1_0_0_1_n_n.rhsIdx (ix2 p c) ((ValueIdx.contrEquiv1 dot_S512x2048_S2048x64_S512x64_1_0_0_1_n_n 2048 rfl rfl).symm k) = ix2 k c := funext fun a => Fin.ext (by
    match a with
    | ⟨0, _⟩ => exact (rhs_down_0 _ _).trans hk
    | ⟨1, _⟩ => exact rhs_down_1 _ _)
  rw [el, er]

/-- The up-projection's product: entry (p, c) sums, over the 64 hidden units, the clamped value times the weight's. -/
theorem lhs_up_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_up_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_up_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_up_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

theorem matmul_up_apply (l : FVec Ideal S512x64 .bf16) (r : FVec Ideal S64x2048 .bf16) (p : Fin 512) (c : Fin 2048) :
    matmul dot_S512x64_S64x2048_S512x2048_1_0_0_1_n_n none l r (constant S512x2048 .f32 0x00000000#32) (ix2 p c)
      = ∑ k : Fin 64, l (ix2 p k) * r (ix2 k c) := by
  simp only [matmul]
  rw [Ideal.matmul_constant_zero_apply, ← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 p c) ((ValueIdx.contrEquiv1 dot_S512x64_S64x2048_S512x2048_1_0_0_1_n_n 64 rfl rfl).symm k) = ix2 p k := funext fun a => Fin.ext (by
    match a with
    | ⟨0, _⟩ => exact lhs_up_0 _ _
    | ⟨1, _⟩ => exact (lhs_up_1 _ _).trans hk)
  have er : dot_S512x64_S64x2048_S512x2048_1_0_0_1_n_n.rhsIdx (ix2 p c) ((ValueIdx.contrEquiv1 dot_S512x64_S64x2048_S512x2048_1_0_0_1_n_n 64 rfl rfl).symm k) = ix2 k c := funext fun a => Fin.ext (by
    match a with
    | ⟨0, _⟩ => exact (rhs_up_0 _ _).trans hk
    | ⟨1, _⟩ => exact rhs_up_1 _ _)
  rw [el, er]

/-- The clamped down-projection of row `p` of the block, at hidden unit `r`. -/
theorem down_apply (v0 : Vec Ideal S512x2048 .f32) (v18 v22 : Vec Ideal S1x2048 .f32) (v27 : Vec Ideal S2048x64 .f32)
    (v31 : Vec Ideal S1x64 .f32) (p : Fin 512) (r : Fin 64) :
    k0_pay3 (F := Ideal) v0 v18 v22 v27 v31 (ix2 p r)
      = rowDown (fun k => v0 (ix2 p k)) (fun k => v18 (ix2 0 k)) (fun k => v22 (ix2 0 k)) (fun r d => v27 (ix2 d r))
          (fun r => v31 (ix2 0 r)) r := by
  have hsum : ∀ w : FVec Ideal S512x2048 .f32,
      multiReduction .add [1] S512 w 0x00000000#32 reduces_S512x2048_S512 (.inl rfl) rfl (ix1 p) = ∑ k : Fin 2048, w (ix2 p k) :=
    fun w => rowSum_apply w _ _ _ p
  unfold k0_pay3 k0_pay2
  simp only [truncf_apply, maximumf_apply, addf_apply, mulf_apply, subf_apply, divf_apply, rsqrt_apply, broadcast_apply,
    shapeCast_self, matmul_down_apply, broadcastTo_1b_ab_apply, broadcastTo_a1_ab_apply, shapeCast_a_a1_apply, hsum,
    Ideal.ofBits_def]
  rfl

/-- The stored block at (p, q). -/
theorem pay_apply (v1 : FVec Ideal S512x2048 .f32) (v37 : FVec Ideal S512x64 .bf16) (v39 : FVec Ideal S64x2048 .f32)
    (v42 : Vec Ideal S1x2048 .f32) (v46 : Vec Ideal S1x1 .f32) (p : Fin 512) (q : Fin 2048) :
    k0_pay1 (F := Ideal) v1 v37 v39 v42 v46 (ix2 p q)
      = ((∑ r : Fin 64, v37 (ix2 p r) * v39 (ix2 r q)) + v42 (ix2 0 q)) * v46 (ix2 0 0) + v1 (ix2 p q) := by
  unfold k0_pay1
  simp only [truncf_apply, addf_apply, mulf_apply, shapeCast_self, matmul_up_apply, broadcastTo_1b_ab_apply,
    broadcastTo_11_ab_apply]

/-- Entry (p, q) of what a grid point leaves in the output block is `rowOut` of row `p` of its input block. -/
theorem out_apply (x0 : Vec Ideal S512x2048 .f32) (x1 x2 : Vec Ideal S1x2048 .f32) (x3 : Vec Ideal S2048x64 .f32)
    (x4 : Vec Ideal S1x64 .f32) (x5 : Vec Ideal S64x2048 .f32) (x6 : Vec Ideal S1x2048 .f32) (x7 : Vec Ideal S1x1 .f32)
    (p : Fin 512) (q : Fin 2048) :
    out0_8 (F := Ideal) x0 x1 x2 x3 x4 x5 x6 x7 (ix2 p q)
      = rowOut (fun k => x0 (ix2 p k)) (fun k => x1 (ix2 0 k)) (fun k => x2 (ix2 0 k)) (fun r d => x3 (ix2 d r))
          (fun r => x4 (ix2 0 r)) (fun d r => x5 (ix2 r d)) (fun d => x6 (ix2 0 d)) (x7 (ix2 0 0)) q := by
  unfold out0_8
  rw [View.canon_unit_zero hz]
  simp only [View.ld_unit_zero (S := S512x2048) hz, View.ld_unit_zero (S := S1x2048) hz, View.ld_unit_zero (S := S2048x64) hz,
    View.ld_unit_zero (S := S1x64) hz, View.ld_unit_zero (S := S64x2048) hz, View.ld_unit_zero (S := S1x1) hz]
  rw [pay_apply]
  simp only [down_apply]
  unfold k0_pay2 k0_pay4
  simp only [shapeCast_self]
  rfl

end Cert.KernelIdeal.Body

end
-- ==== Proof.ArrayValue.lean ====
/-
  From blocks to the whole result. The launch walks 32 grid points; point `t` holds rows
  `512 t … 512 t + 511` of the flattened input and writes the same rows of the output, while the
  LayerNorm weights, both projection matrices, the biases and the scale are whole at every point.
  Every row of the output lies in exactly the block of point `row / 512`, so after the launch the
  flattened output is the row-wise function `G2` of the arrays the launch was given. Those arrays
  are the arguments reshaped and transposed by the program's first lines, and its last line
  unflattens the output: the program's result is `G` of the arguments.
-/
import proofs.«135391_j25907242729694_1_alg».proof.Proof.Gen.KernelIdeal.Frame
import proofs.«135391_j25907242729694_1_alg».proof.Proof.BodyValue
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Body Cert.Adapter

variable (m : (ℓ : Loc nD τ sig) → Buf (Elt Ideal) ℓ) (ρ : Dev nD → PrngReg)

/-- The printed index maps over the grid: the input's and the output's row block is the point's number, every other
    window sits at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The arrays the launch is given -/

abbrev aX (c : Dev nD) : T2.Idx → EReal := V m c main_v0
abbrev aG (c : Dev nD) : R2048.Idx → EReal := V m c main_v1
abbrev aB (c : Dev nD) : R2048.Idx → EReal := V m c main_v2
abbrev aWd (c : Dev nD) : M2048x64.Idx → EReal := V m c main_v3
abbrev aBd (c : Dev nD) : R64.Idx → EReal := V m c main_v4
abbrev aWu (c : Dev nD) : M64x2048.Idx → EReal := V m c main_v5
abbrev aBu (c : Dev nD) : R2048.Idx → EReal := V m c main_v6
abbrev aSc (c : Dev nD) : R1.Idx → EReal := V m c main_v7

/-! ## The blocks a point holds -/

abbrev bX (c : Dev nD) (t : Fin cfg0.N) : Vec Ideal S512x2048 .f32 := iblk m c 0 t
abbrev bG (c : Dev nD) (t : Fin cfg0.N) : Vec Ideal S1x2048 .f32 := iblk m c 1 t
abbrev bB (c : Dev nD) (t : Fin cfg0.N) : Vec Ideal S1x2048 .f32 := iblk m c 2 t
abbrev bWd (c : Dev nD) (t : Fin cfg0.N) : Vec Ideal S2048x64 .f32 := iblk m c 3 t
abbrev bBd (c : Dev nD) (t : Fin cfg0.N) : Vec Ideal S1x64 .f32 := iblk m c 4 t
abbrev bWu (c : Dev nD) (t : Fin cfg0.N) : Vec Ideal S64x2048 .f32 := iblk m c 5 t
abbrev bBu (c : Dev nD) (t : Fin cfg0.N) : Vec Ideal S1x2048 .f32 := iblk m c 6 t
abbrev bSc (c : Dev nD) (t : Fin cfg0.N) : Vec Ideal S1x1 .f32 := iblk m c 7 t

/-- Row `p` of the input block at point `t` is row `512 t + p` of the flattened input. -/
theorem bX_apply (c : Dev nD) (t : Fin cfg0.N) (y : S512x2048.Idx) (k : T2.Idx)
    (hk0 : (k 0).val = 512 * t.val + (y 0).val) (hk1 : (k 1).val = (y 1).val) : bX m c t y = aX m c k := by
  obtain ⟨e0, e1, -⟩ := idx_facts t
  show iblk m c 0 t y = V m c main_v0 k
  unfold iblk
  rw [View.read_apply]
  show V m c main_v0 _ = V m c main_v0 k
  congr 1
  funext a
  apply Fin.ext
  match a with
  | ⟨0, _⟩ => show win0_0.index t 0 * 512 + 1 * (y 0).val = (k 0).val; rw [e0, hk0]; omega
  | ⟨1, _⟩ => show win0_0.index t 1 * 2048 + 1 * (y 1).val = (k 1).val; rw [e1, hk1]; omega

/-- The other windows hold their whole arrays at every point. -/
theorem bG_eq (c : Dev nD) (t : Fin cfg0.N) : bG m c t = aG m c := by
  obtain ⟨-, -, e0, e1, -⟩ := idx_facts t
  funext y
  show iblk m c 1 t y = V m c main_v1 y
  unfold iblk
  rw [View.read_apply]
  show V m c main_v1 _ = V m c main_v1 y
  congr 1
  funext a
  apply Fin.ext
  match a with
  | ⟨0, _⟩ => show win0_1.index t 0 * 1 + 1 * (y 0).val = (y 0).val; rw [e0]; omega
  | ⟨1, _⟩ => show win0_1.index t 1 * 2048 + 1 * (y 1).val = (y 1).val; rw [e1]; omega
theorem bB_eq (c : Dev nD) (t : Fin cfg0.N) : bB m c t = aB m c := by
  obtain ⟨-, -, -, -, e0, e1, -⟩ := idx_facts t
  funext y
  show iblk m c 2 t y = V m c main_v2 y
  unfold iblk
  rw [View.read_apply]
  show V m c main_v2 _ = V m c main_v2 y
  congr 1
  funext a
  apply Fin.ext
  match a with
  | ⟨0, _⟩ => show win0_2.index t 0 * 1 + 1 * (y 0).val = (y 0).val; rw [e0]; omega
  | ⟨1, _⟩ => show win0_2.index t 1 * 2048 + 1 * (y 1).val = (y 1).val; rw [e1]; omega
theorem bWd_eq (c : Dev nD) (t : Fin cfg0.N) : bWd m c t = aWd m c := by
  obtain ⟨-, -, -, -, -, -, e0, e1, -⟩ := idx_facts t
  funext y
  show iblk m c 3 t y = V m c main_v3 y
  unfold iblk
  rw [View.read_apply]
  show V m c main_v3 _ = V m c main_v3 y
  congr 1
  funext a
  apply Fin.ext
  match a with
  | ⟨0, _⟩ => show win0_3.index t 0 * 2048 + 1 * (y 0).val = (y 0).val; rw [e0]; omega
  | ⟨1, _⟩ => show win0_3.index t 1 * 64 + 1 * (y 1).val = (y 1).val; rw [e1]; omega
theorem bBd_eq (c : Dev nD) (t : Fin cfg0.N) : bBd m c t = aBd m c := by
  obtain ⟨-, -, -, -, -, -, -, -, e0, e1, -⟩ := idx_facts t
  funext y
  show iblk m c 4 t y = V m c main_v4 y
  unfold iblk
  rw [View.read_apply]
  show V m c main_v4 _ = V m c main_v4 y
  congr 1
  funext a
  apply Fin.ext
  match a with
  | ⟨0, _⟩ => show win0_4.index t 0 * 1 + 1 * (y 0).val = (y 0).val; rw [e0]; omega
  | ⟨1, _⟩ => show win0_4.index t 1 * 64 + 1 * (y 1).val = (y 1).val; rw [e1]; omega
theorem bWu_eq (c : Dev nD) (t : Fin cfg0.N) : bWu m c t = aWu m c := by
  obtain ⟨-, -, -, -, -, -, -, -, -, -, e0, e1, -⟩ := idx_facts t
  funext y
  show iblk m c 5 t y = V m c main_v5 y
  unfold iblk
  rw [View.read_apply]
  show V m c main_v5 _ = V m c main_v5 y
  congr 1
  funext a
  apply Fin.ext
  match a with
  | ⟨0, _⟩ => show win0_5.index t 0 * 64 + 1 * (y 0).val = (y 0).val; rw [e0]; omega
  | ⟨1, _⟩ => show win0_5.index t 1 * 2048 + 1 * (y 1).val = (y 1).val; rw [e1]; omega
theorem bBu_eq (c : Dev nD) (t : Fin cfg0.N) : bBu m c t = aBu m c := by
  obtain ⟨-, -, -, -, -, -, -, -, -, -, -, -, e0, e1, -⟩ := idx_facts t
  funext y
  show iblk m c 6 t y = V m c main_v6 y
  unfold iblk
  rw [View.read_apply]
  show V m c main_v6 _ = V m c main_v6 y
  congr 1
  funext a
  apply Fin.ext
  match a with
  | ⟨0, _⟩ => show win0_6.index t 0 * 1 + 1 * (y 0).val = (y 0).val; rw [e0]; omega
  | ⟨1, _⟩ => show win0_6.index t 1 * 2048 + 1 * (y 1).val = (y 1).val; rw [e1]; omega
theorem bSc_eq (c : Dev nD) (t : Fin cfg0.N) : bSc m c t = aSc m c := by
  obtain ⟨-, -, -, -, -, -, -, -, -, -, -, -, -, -, e0, e1, -⟩ := idx_facts t
  funext y
  show iblk m c 7 t y = V m c main_v7 y
  unfold iblk
  rw [View.read_apply]
  show V m c main_v7 _ = V m c main_v7 y
  congr 1
  funext a
  apply Fin.ext
  match a with
  | ⟨0, _⟩ => show win0_7.index t 0 * 1 + 1 * (y 0).val = (y 0).val; rw [e0]; omega
  | ⟨1, _⟩ => show win0_7.index t 1 * 1 + 1 * (y 1).val = (y 1).val; rw [e1]; omega

/-! ## What a point writes back -/

/-- The row-wise function of the launch's arrays. -/
abbrev result2 (c : Dev nD) : T2.Idx → EReal :=
  G2 (aX m c) (aG m c) (aB m c) (aWd m c) (aBd m c) (aWu m c) (aBu m c) (aSc m c)

/-- Entry `y` of the block a point computes is entry `k` of the row-wise function, `k` being `y` moved down by the
    point's 512 t rows. -/
theorem block_apply (c : Dev nD) (t : Fin cfg0.N) (y : S512x2048.Idx) (k : T2.Idx)
    (hk0 : (k 0).val = 512 * t.val + (y 0).val) (hk1 : (k 1).val = (y 1).val) :
    out0_8 (F := Ideal) (bX m c t) (bG m c t) (bB m c t) (bWd m c t) (bBd m c t) (bWu m c t) (bBu m c t) (bSc m c t) y
      = result2 m c k := by
  rw [bG_eq, bB_eq, bWd_eq, bBd_eq, bWu_eq, bBu_eq, bSc_eq]
  obtain ⟨p, q, rfl⟩ : ∃ (p : Fin 512) (q : Fin 2048), y = ix2 p q := ⟨y 0, y 1, eq_ix2 y⟩
  rw [out_apply]
  have hq : k 1 = q := Fin.ext hk1
  show rowOut _ _ _ _ _ _ _ _ q = rowOut (fun j => aX m c (ix2 (k 0) j)) _ _ _ _ _ _ _ (k 1)
  rw [hq]
  refine congrArg (fun f => rowOut f _ _ _ _ _ _ _ q) (funext fun j => ?_)
  exact bX_apply m c t (ix2 p j) (ix2 (k 0) j) hk0 rfl

/-- What point `t` writes back is block `t` of the row-wise function. -/
theorem flushed_eq (c : Dev nD) (t : Fin cfg0.N) :
    (dats m 0 c).flushed 8 t = ((cfg0.win 8).blk t).view.read (Elt Ideal) (result2 m c) := by
  obtain ⟨-, -, -, -, -, -, -, -, -, -, -, -, -, -, -, -, e0, e1⟩ := idx_facts t
  show (cfg0.win 8).cut (grid0.coords t) ((dats m 0 c).after 8 t) = _
  rw [after0_8]
  funext y
  rw [View.read_apply]
  refine block_apply m c t y _ ?_ ?_
  · show win0_8.index t 0 * 512 + 1 * (y 0).val = 512 * t.val + (y 0).val; rw [e0]; omega
  · show win0_8.index t 1 * 2048 + 1 * (y 1).val = (y 1).val; rw [e1]; omega

/-- An index of the flattened output is in point `t`'s block iff its row is among the point's 512 rows. -/
theorem mem_blk (t : Fin cfg0.N) (i : T2.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v8).slice (win0_8.rect t)).set ↔ _
  rw [View.set_slice_whole, Rect.mem_set_unit]
  exact Iff.rfl

/-- The flattened output after the launch. -/
theorem final (c : Dev nD) : (dats m 0 c).arrAt 8 cfg0.N = result2 m c :=
  (dats m 0 c).arrAt_eq_of_cover 8 (result2 m c) (fun t _ => flushed_eq m c t) fun i => by
    have hN : cfg0.N = 32 := N_0
    have hi0 : (i 0).val < 16384 := (i 0).isLt
    have hi1 : (i 1).val < 2048 := (i 1).isLt
    let t : Fin cfg0.N := ⟨(i 0).val / 512, by rw [hN]; omega⟩
    obtain ⟨-, -, -, -, -, -, -, -, -, -, -, -, -, -, -, -, e0, e1⟩ := idx_facts t
    have ht : t.val = (i 0).val / 512 := rfl
    refine ⟨t, flush0_8 t, ?_⟩
    rw [mem_blk]
    intro a
    match a with
    | ⟨0, _⟩ => show win0_8.index t 0 * 512 ≤ (i 0).val ∧ (i 0).val < win0_8.index t 0 * 512 + 512; rw [e0, ht]; omega
    | ⟨1, _⟩ => show win0_8.index t 1 * 2048 ≤ (i 1).val ∧ (i 1).val < win0_8.index t 1 * 2048 + 2048; rw [e1]; omega

/-! ## The program's first lines: the launch's arrays from the arguments -/

theorem aX_eq (c : Dev nD) : aX m c = shapeCast T2 (m ((c : Thread nD τ).loc main_arg0)) shapeCasts_S4x4096x2048_S16384x2048 := by
  show StableHlo.after hostOps0 (fun b => m (c, b)) (Proc.devRef .tc main_v0) = _
  after_results
  all_goals rfl
theorem aG_eq (c : Dev nD) : aG m c = shapeCast R2048 (m ((c : Thread nD τ).loc main_arg1)) shapeCasts_S2048_S1x2048 := by
  show StableHlo.after hostOps0 (fun b => m (c, b)) (Proc.devRef .tc main_v1) = _
  after_results
  all_goals rfl
theorem aB_eq (c : Dev nD) : aB m c = shapeCast R2048 (m ((c : Thread nD τ).loc main_arg2)) shapeCasts_S2048_S1x2048 := by
  show StableHlo.after hostOps0 (fun b => m (c, b)) (Proc.devRef .tc main_v2) = _
  after_results
  all_goals rfl
theorem aWd_eq (c : Dev nD) : aWd m c = transpose M2048x64 [1, 0] (m ((c : Thread nD τ).loc main_arg3)) transposes_S64x2048_S2048x64_1_0 := by
  show StableHlo.after hostOps0 (fun b => m (c, b)) (Proc.devRef .tc main_v3) = _
  after_results
  all_goals rfl
theorem aBd_eq (c : Dev nD) : aBd m c = shapeCast R64 (m ((c : Thread nD τ).loc main_arg4)) shapeCasts_S64_S1x64 := by
  show StableHlo.after hostOps0 (fun b => m (c, b)) (Proc.devRef .tc main_v4) = _
  after_results
  all_goals rfl
theorem aWu_eq (c : Dev nD) : aWu m c = transpose M64x2048 [1, 0] (m ((c : Thread nD τ).loc main_arg5)) transposes_S2048x64_S64x2048_1_0 := by
  show StableHlo.after hostOps0 (fun b => m (c, b)) (Proc.devRef .tc main_v5) = _
  after_results
  all_goals rfl
theorem aBu_eq (c : Dev nD) : aBu m c = shapeCast R2048 (m ((c : Thread nD τ).loc main_arg6)) shapeCasts_S2048_S1x2048 := by
  show StableHlo.after hostOps0 (fun b => m (c, b)) (Proc.devRef .tc main_v6) = _
  after_results
  all_goals rfl
theorem aSc_eq (c : Dev nD) : aSc m c = shapeCast R1 (m ((c : Thread nD τ).loc main_arg7)) shapeCasts_S1_S1x1 := by
  show StableHlo.after hostOps0 (fun b => m (c, b)) (Proc.devRef .tc main_v7) = _
  after_results
  all_goals rfl

/-! ## The program's last line, and the run -/

/-- The result over the argument arrays. -/
abbrev result (c : Dev nD) : T3.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What the last line leaves in the result buffer: the flattened output unflattened, which is `G` of the arguments. -/
theorem tail_eq (c : Dev nD) :
    Pipeline.afterTail₀ cfgs (dats m) 0 (V0 m) [hostOps1] c main_v9 = result m c := by
  unfold Pipeline.afterTail₀
  show StableHlo.after hostOps1 _ (Proc.devRef .tc main_v9) = _
  after_results
  rw [show (Pipeline.withArrays spec0 c (V0 m c) fun w => (dats m 0 c).arrAt w cfg0.N) (Proc.devRef .tc main_v8)
      = result2 m c from (Pipeline.withArrays_arr spec0 launch0.win.arr_inj c _ _ 8).trans (final m c)]
  show shapeCast T3 (result2 m c) shapeCasts_S16384x2048_S4x4096x2048 = _
  unfold result2
  rw [aX_eq, aG_eq, aB_eq, aWd_eq, aBd_eq, aWu_eq, aBu_eq, aSc_eq]
  exact reshape_G2 _ _ _ _ _ _ _ _ _ _ _ _ _ _ _

/-- Every execution ends with the result buffer at `G` of the arguments, the arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Arr

end
-- ==== Proof.lean ====
/-
  An adapter layer: LayerNorm over the last axis, a down-projection to 64 hidden units with bias and a clamp
  at zero, an up-projection back to 2048 with bias, a scalar scale, and the residual input added.

  On the extended reals the kernel and the reference compute the same function, row by row:
    out d = ((∑_r max((∑_k norm k · w_down r k) + b_down r, 0) · w_up d r) + b_up d) · scale + x d,
    norm k = (x k − mean) · rsqrt(var + ε) · γ k + β k,  mean = (∑ x)/2048,  var = (∑ (x − mean)²)/2048,
  with the same float words for 2048, ε and 0 on both sides. Nothing beyond the order of the sums differs:
  the kernel cuts the 16384 rows into 32 blocks of 512, reads the weights transposed, and narrows the matrix
  operands to sixteen bits, which changes no extended real; its matrix products start from zero and so are
  the plain sums the reference's contractions are. No law that needs finite entries is used, so the
  precondition is never opened.

  The three frames are the generated ones (the reference's is its run with the result dropped), the
  idealization rewrote nothing, and the value claim puts both runs' results at the one function `G`.
-/
import proofs.«135391_j25907242729694_1_alg».proof.Defs
import proofs.«135391_j25907242729694_1_alg».proof.Proof.Gen.Kernel
import proofs.«135391_j25907242729694_1_alg».proof.Proof.Gen.Kernel.Skeleton
import proofs.«135391_j25907242729694_1_alg».proof.Proof.Gen.Kernel.Launch
import proofs.«135391_j25907242729694_1_alg».proof.Proof.Gen.Kernel.Points
import proofs.«135391_j25907242729694_1_alg».proof.Proof.Gen.Kernel.Frame
import proofs.«135391_j25907242729694_1_alg».proof.Proof.Gen.KernelIdeal
import proofs.«135391_j25907242729694_1_alg».proof.Proof.Gen.KernelIdeal.Skeleton
import proofs.«135391_j25907242729694_1_alg».proof.Proof.Gen.KernelIdeal.Launch
import proofs.«135391_j25907242729694_1_alg».proof.Proof.Gen.KernelIdeal.Points
import proofs.«135391_j25907242729694_1_alg».proof.Proof.Gen.KernelIdeal.Frame
import proofs.«135391_j25907242729694_1_alg».proof.Proof.Gen.ReferenceIdeal
import proofs.«135391_j25907242729694_1_alg».proof.Proof.Gen.Pre_finite_inputs
import proofs.«135391_j25907242729694_1_alg».proof.Proof.Gen.ReferenceIdeal.Run
import proofs.«135391_j25907242729694_1_alg».proof.Proof.Gen.ReferenceIdeal.Read
import proofs.«135391_j25907242729694_1_alg».proof.Proof.RefValue
import proofs.«135391_j25907242729694_1_alg».proof.Proof.ArrayValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result buffer at `G` of the arguments:
    the kernel by its blocks (every row of the output is written by the point that holds it), the reference by
    reading its operations one at a time. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v36_eq _ _ _ _ _ _ _ _).trans ?_
  rw [Cert.ReferenceIdeal.RefValue.result_eq]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
